-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048x64 : Shape := ⟨3, ![1024, 2048, 64]⟩
abbrev S64x64 : Shape := ⟨2, ![64, 64]⟩
abbrev S64 : Shape := ⟨1, ![64]⟩
abbrev S_ : Shape := ⟨0, ![]⟩

class Facts : Prop where
  bcast_S_S1024x2048x64 : S_.BroadcastsInDim S1024x2048x64 (![] : Fin 0 → Fin S1024x2048x64.rank)
  reducesTo_S1024x2048x64_S_d0_1_2 : S1024x2048x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S1024x2048x64 .f32) (main_arg1 : FVec F S64x64 .f32) (main_arg2 : FVec F S64 .f32) : IVec S_ 1 :=
  let main_v0 : FVec F S1024x2048x64 .f32 := Host.absf main_arg0
  let main_cst : FVec F S_ .f32 := constant S_ .f32 0x7F800000#32
  let main_v1 : FVec F S1024x2048x64 .f32 := broadcastInDim S1024x2048x64 ![] bcast_S_S1024x2048x64 main_cst
  let main_v2 : IVec S1024x2048x64 1 := cmpf .olt main_v0 main_v1
  let main_c : IVec S_ 1 := constantI S_ 1 1#1
  let main_v3 : IVec S_ 1 := (fun x v => Host.reduce IntOp.andi x v reducesTo_S1024x2048x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S1024x2048x64 : Shape := ⟨3, ![1024, 2048, 64]⟩
abbrev S64x64 : Shape := ⟨2, ![64, 64]⟩
abbrev S64 : Shape := ⟨1, ![64]⟩
abbrev S2097152x64 : Shape := ⟨2, ![2097152, 64]⟩
abbrev S1x64 : Shape := ⟨2, ![1, 64]⟩
abbrev S8192x64 : Shape := ⟨2, ![8192, 64]⟩

abbrev nBuf : Space → Nat
  | .hbm => 7
  | .vmem => 6
  | .smem => 0
  | _ => 0

abbrev bufTy : (tb : Table) → Fin (tcTables nBuf tb) → BufTy
  | .hbm, ⟨0, _⟩ => ⟨S1024x2048x64, .f32⟩
  | .hbm, ⟨1, _⟩ => ⟨S64x64, .f32⟩
  | .hbm, ⟨2, _⟩ => ⟨S64, .f32⟩
  | .hbm, ⟨3, _⟩ => ⟨S2097152x64, .f32⟩
  | .hbm, ⟨4, _⟩ => ⟨S1x64, .f32⟩
  | .hbm, ⟨5, _⟩ => ⟨S2097152x64, .f32⟩
  | .hbm, ⟨6, _⟩ => ⟨S1024x2048x64, .f32⟩
  | .local _ .vmem, ⟨0, _⟩ => ⟨S8192x64, .f32⟩
  | .local _ .vmem, ⟨1, _⟩ => ⟨S8192x64, .f32⟩
  | .local _ .vmem, ⟨2, _⟩ => ⟨S64x64, .f32⟩
  | .local _ .vmem, ⟨3, _⟩ => ⟨S1x64, .f32⟩
  | .local _ .vmem, ⟨4, _⟩ => ⟨S8192x64, .f32⟩
  | .local _ .vmem, ⟨5, _⟩ => ⟨S8192x64, .f32⟩
  | _, _ => ⟨S1024x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x2048x64_S2097152x64 : S1024x2048x64.ShapeCasts S2097152x64
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  shapeCasts_S2097152x64_S1024x2048x64 : S2097152x64.ShapeCasts S1024x2048x64
  dot_S8192x64_S64x64_S8192x64_1_1_0_0_n_n_wf : DotDims.WF S8192x64 S64x64 S8192x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S2097152x64.size a
  hwx0_0 : ∀ i : grid0.Coords, EltTy.bits .f32 = 32 ∨ (Rect.block (s := S2097152x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S2097152x64.size a
  hwx0_3 : ∀ i : grid0.Coords, EltTy.bits .f32 = 32 ∨ (Rect.block (s := S2097152x64) S8192x64.size (cc0_transform_3 i) (hinb0_3 i)).WholeWords (EltTy.packing .f32)

variable [Facts₀]

def dot_S8192x64_S64x64_S8192x64_1_1_0_0_n_n : DotDims S8192x64 S64x64 S8192x64 where
  lhsContracting := [1]
  rhsContracting := [1]
  lhsNonContracting := [0]
  rhsNonContracting := [0]
  lhsBatch := []
  rhsBatch := []
  wf := dot_S8192x64_S64x64_S8192x64_1_1_0_0_n_n_wf

abbrev win0_0 : Pipeline.Window sig grid0 :=
  Pipeline.Window.ofSpec (Memref.whole main_v0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x2048x64 : Shape := ⟨3, ![1024, 2048, 64]⟩
abbrev S64x64 : Shape := ⟨2, ![64, 64]⟩
abbrev S64 : Shape := ⟨1, ![64]⟩
abbrev S1x1x64 : Shape := ⟨3, ![1, 1, 64]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048x64, .f32⟩
  | .hbm, ⟨1, _⟩ => ⟨S64x64, .f32⟩
  | .hbm, ⟨2, _⟩ => ⟨S64, .f32⟩
  | .hbm, ⟨3, _⟩ => ⟨S1024x2048x64, .f32⟩
  | .hbm, ⟨4, _⟩ => ⟨S1x1x64, .f32⟩
  | .hbm, ⟨5, _⟩ => ⟨S1024x2048x64, .f32⟩
  | .hbm, ⟨6, _⟩ => ⟨S1024x2048x64, .f32⟩
  | _, _ => ⟨S1024x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S1024x2048x64_0_1_2 : S1x1x64.BroadcastsInDim S1024x2048x64 (![0, 1, 2] : Fin 3 → Fin S1024x2048x64.rank)
  dot_S1024x2048x64_S64x64_S1024x2048x64_2_1_01_0_n_n_wf : DotDims.WF S1024x2048x64 S64x64 S1024x2048x64 [2] [1] [0, 1] [0] [] []

variable [Facts₀]

def dot_S1024x2048x64_S64x64_S1024x2048x64_2_1_01_0_n_n : DotDims S1024x2048x64 S64x64 S1024x2048x64 where
  lhsContracting := [2]
  rhsContracting := [1]
  lhsNonContracting := [0, 1]
  rhsNonContracting := [0]
  lhsBatch := []
  rhsBatch := []
  wf := dot_S1024x2048x64_S64x64_S1024x2048x64_2_1_01_0_n_n_wf

class Facts : Prop extends Facts₀ where

variable [Facts]
-- ==== Proof.Spec.lean ====
/-
  The specification of the affine map on the channel axis, as plain functions of extended reals.

  For an input x of shape [1024, 2048, 64], a weight w of shape [64, 64] and a bias b of shape [64],
      y[n, s, o] = (Σ_i x[n, s, i] · w[o, i]) + b[o].
  The same map on the flattened rows (r = n · 2048 + s, a [2097152, 64] array, the bias as a [1, 64] row):
      z[r, o] = (Σ_i x2[r, i] · w[o, i]) + b2[0, o].
  Flattening the leading two axes of x and un-flattening z gives back y: row-major positions agree,
  r · 64 + o = (n · 2048 + s) · 64 + o.  No algebraic law of the extended reals is used: both sides
  are the same sum of the same products in the same order.
-/
import Idealize.ShloMosaic.PureOps.Ideal
import Idealize.ShloMosaic.Lib.ValueIdx
import Idealize.ShloMosaic.Lib.Pipeline.Value

noncomputable section

open scoped BigOperators

namespace Cert.Affine

open Idealize.ShloMosaic Idealize.ShloMosaic.ValueIdx

abbrev SX : Shape := ⟨3, ![1024, 2048, 64]⟩
abbrev SW : Shape := ⟨2, ![64, 64]⟩
abbrev SB : Shape := ⟨1, ![64]⟩
abbrev SRows : Shape := ⟨2, ![2097152, 64]⟩
abbrev SBRow : Shape := ⟨2, ![1, 64]⟩

/-- y[n, s, o] = (Σ_i x[n, s, i] · w[o, i]) + b[o]. -/
def affine (x : SX.Idx → EReal) (w : SW.Idx → EReal) (b : SB.Idx → EReal) : SX.Idx → EReal :=
  fun i => (∑ k : Fin 64, x (ix3 (i 0) (i 1) k) * w (ix2 (i 2) k)) + b (ix1 (i 2))

/-- z[r, o] = (Σ_i x2[r, i] · w[o, i]) + b2[0, o]. -/
def affineRows (x : SRows.Idx → EReal) (w : SW.Idx → EReal) (b : SBRow.Idx → EReal) : SRows.Idx → EReal :=
  fun j => (∑ k : Fin 64, x (ix2 (j 0) k) * w (ix2 (j 1) k)) + b (ix2 (0 : Fin 1) (j 1))

/-- `affineRows` read at (r, o). -/
theorem affineRows_at (x : SRows.Idx → EReal) (w : SW.Idx → EReal) (b : SBRow.Idx → EReal) (r : Fin 2097152) (o : Fin 64) :
    affineRows x w b (ix2 r o) = (∑ k : Fin 64, x (ix2 r k) * w (ix2 o k)) + b (ix2 (0 : Fin 1) o) := rfl

/-- The flattened row of (n, s). -/
def rowOf (n : Fin 1024) (s : Fin 2048) : Fin 2097152 := ⟨n.val * 2048 + s.val, by omega⟩

/-- The flattened input read at (row of (n, s), i) is x[n, s, i]. -/
theorem flatten_apply (x : SX.Idx → EReal) (h : SX.ShapeCasts SRows) (n : Fin 1024) (s : Fin 2048) (i : Fin 64) :
    shapeCast SRows x h (ix2 (rowOf n s) i) = x (ix3 n s i) := by
  refine shapeCast_apply x h _ _ ?_
  rw [Shape.rowMajor_val_two, Shape.rowMajor_val_three]
  rfl

/-- The bias as a one-row matrix read at (0, o) is b[o]. -/
theorem biasRow_apply (b : SB.Idx → EReal) (h : SB.ShapeCasts SBRow) (o : Fin 64) :
    shapeCast SBRow b h (ix2 (0 : Fin 1) o) = b (ix1 o) := by
  refine shapeCast_apply b h _ _ ?_
  rw [Shape.rowMajor_val_two, Shape.rowMajor_val_one]
  show o.val = 0 * 64 + o.val
  omega

/-- Un-flattening the row form of the flattened input is the affine map itself. -/
theorem unflatten_affineRows (x : SX.Idx → EReal) (w : SW.Idx → EReal) (b : SB.Idx → EReal)
    (h1 : SX.ShapeCasts SRows) (h2 : SB.ShapeCasts SBRow) (h3 : SRows.ShapeCasts SX) :
    shapeCast SX (affineRows (shapeCast SRows x h1) w (shapeCast SBRow b h2)) h3 = affine x w b := by
  funext i
  obtain ⟨n, s, o, rfl⟩ : ∃ (n : Fin 1024) (s : Fin 2048) (o : Fin 64), i = ix3 n s o := ⟨i 0, i 1, i 2, eq_ix3 i⟩
  refine (shapeCast_apply _ h3 (ix3 n s o) (ix2 (rowOf n s) o) ?_).trans ?_
  · rw [Shape.rowMajor_val_two, Shape.rowMajor_val_three]
    rfl
  · unfold affineRows affine
    show (∑ k : Fin 64, shapeCast SRows x h1 (ix2 (rowOf n s) k) * w (ix2 o k)) + shapeCast SBRow b h2 (ix2 (0 : Fin 1) o)
        = (∑ k : Fin 64, x (ix3 n s k) * w (ix2 o k)) + b (ix1 o)
    rw [biasRow_apply]
    exact congrArg (· + b (ix1 o)) (Finset.sum_congr rfl fun k _ => by rw [flatten_apply])

end Cert.Affine

end
-- ==== Proof.RefValue.lean ====
/-
  The reference program's result is the affine map of its arguments.

  The reference computes a dot_general contracting the channel axis of x [1024, 2048, 64] with axis 1 of
  w [64, 64], and adds the bias broadcast along the two leading axes.  Read at an index (n, s, o) this is
      (Σ_i x[n, s, i] · w[o, i]) + b[o],
  which is the specification's `affine` verbatim.
-/
import proofs.«173510_j28527172780630_1_alg».proof.Proof.Gen.ReferenceIdeal.Run
import proofs.«173510_j28527172780630_1_alg».proof.Proof.Gen.ReferenceIdeal.Read
import proofs.«173510_j28527172780630_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Affine

/-- The left operand of the contraction at output index (n, s, o) and contraction index i is x[n, s, i]. -/
theorem lidx_eq (i : S1024x2048x64.Idx) (k : Fin 64) : lidx_main_v0 i k = ix3 (i 0) (i 1) k :=
  funext fun a => Fin.ext (by match a with | ⟨0, _⟩ => rfl | ⟨1, _⟩ => rfl | ⟨2, _⟩ => rfl)

/-- The right operand there is w[o, i]. -/
theorem ridx_eq (i : S1024x2048x64.Idx) (k : Fin 64) : ridx_main_v0 i k = ix2 (i 2) k :=
  funext fun a => Fin.ext (by match a with | ⟨0, _⟩ => rfl | ⟨1, _⟩ => rfl)

/-- The doubly broadcast bias at (n, s, o) is b[o]. -/
theorem bidx_eq (i : S1024x2048x64.Idx) : idx_main_v1 (idx_main_v2 i) = ix1 (i 2) :=
  funext fun a => Fin.ext (by match a with | ⟨0, _⟩ => rfl)

/-- The reference's result, at the extended reals, is `affine` of its three arguments. -/
theorem result_eq (x0 : (⟨S1024x2048x64, .f32⟩ : BufTy).Contents (Elt Ideal)) (x1 : (⟨S64x64, .f32⟩ : BufTy).Contents (Elt Ideal))
    (x2 : (⟨S64, .f32⟩ : BufTy).Contents (Elt Ideal)) :
    val_main_v3 (F := Ideal) x0 x1 x2 = affine x0 x1 x2 := by
  funext i
  rw [val_main_v3_apply, val_main_v0_apply, val_main_v2_apply, val_main_v1_apply]
  simp only [lidx_eq, ridx_eq, bidx_eq]
  rfl

end Cert.ReferenceIdeal.RefValue

end
-- ==== Proof.Payload.lean ====
/-
  The kernel body's stored value, read at one element.

  On a block of 8192 rows the body stores, at (p, q),
      (Σ_i xblk[p, i] · w[q, i]) + brow[0, q]:
  the matrix product contracts axis 1 of the row block with axis 1 of the weight into a zero accumulator
  (so it is just the sum of products), the two narrowing casts are the identity on extended reals, the two
  same-shape casts are the identity, and the bias row is broadcast down the rows.
-/
import proofs.«173510_j28527172780630_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ## The product's operand indices, axis by axis -/

theorem lhs_axis0 (i : S8192x64.Idx) (q : dot_S8192x64_S64x64_S8192x64_1_1_0_0_n_n.contr.Idx) :
    (dot_S8192x64_S64x64_S8192x64_1_1_0_0_n_n.lhsIdx i q 0).val = (i 0).val := by
  unfold DotDims.lhsIdx
  rw [dif_neg (show ¬(0 : Fin S8192x64.rank) ∈ dot_S8192x64_S64x64_S8192x64_1_1_0_0_n_n.lhsBatch by decide), dif_pos (show (0 : Fin S8192x64.rank) ∈ dot_S8192x64_S64x64_S8192x64_1_1_0_0_n_n.lhsNonContracting by decide)]
  rfl
theorem lhs_axis1 (i : S8192x64.Idx) (q : dot_S8192x64_S64x64_S8192x64_1_1_0_0_n_n.contr.Idx) :
    (dot_S8192x64_S64x64_S8192x64_1_1_0_0_n_n.lhsIdx i q 1).val = (q ⟨0, by decide⟩).val :=
  dot_S8192x64_S64x64_S8192x64_1_1_0_0_n_n.lhsIdx_val_of_single rfl i q
theorem rhs_axis0 (i : S8192x64.Idx) (q : dot_S8192x64_S64x64_S8192x64_1_1_0_0_n_n.contr.Idx) :
    (dot_S8192x64_S64x64_S8192x64_1_1_0_0_n_n.rhsIdx i q 0).val = (i 1).val := by
  unfold DotDims.rhsIdx
  rw [dif_neg (show ¬(0 : Fin S64x64.rank) ∈ dot_S8192x64_S64x64_S8192x64_1_1_0_0_n_n.rhsBatch by decide), dif_pos (show (0 : Fin S64x64.rank) ∈ dot_S8192x64_S64x64_S8192x64_1_1_0_0_n_n.rhsNonContracting by decide)]
  rfl
theorem rhs_axis1 (i : S8192x64.Idx) (q : dot_S8192x64_S64x64_S8192x64_1_1_0_0_n_n.contr.Idx) :
    (dot_S8192x64_S64x64_S8192x64_1_1_0_0_n_n.rhsIdx i q 1).val = (q ⟨0, by decide⟩).val :=
  dot_S8192x64_S64x64_S8192x64_1_1_0_0_n_n.rhsIdx_val_of_single rfl i q

/-! ## The three non-pointwise operations at an element -/

/-- The block product into a zero accumulator at (p, q) is Σ_i l[p, i] · r[q, i]. -/
theorem matmul_at (l : FVec Ideal S8192x64 .bf16) (r : FVec Ideal S64x64 .bf16) (p : Fin 8192) (q : Fin 64) :
    matmul dot_S8192x64_S64x64_S8192x64_1_1_0_0_n_n none l r (constant S8192x64 .f32 0x00000000#32) (ix2 p q)
      = ∑ k : Fin 64, l (ix2 p k) * r (ix2 q k) := by
  simp only [matmul]
  rw [Ideal.matmul_constant_zero_apply, ← Equiv.sum_comp (ValueIdx.contrEquiv1 dot_S8192x64_S64x64_S8192x64_1_1_0_0_n_n 64 rfl rfl).symm]
  refine Finset.sum_congr rfl fun k _ => ?_
  have hk := ValueIdx.contrEquiv1_symm_val dot_S8192x64_S64x64_S8192x64_1_1_0_0_n_n 64 rfl rfl k
  have el : dot_S8192x64_S64x64_S8192x64_1_1_0_0_n_n.lhsIdx (ix2 p q) ((ValueIdx.contrEquiv1 dot_S8192x64_S64x64_S8192x64_1_1_0_0_n_n 64 rfl rfl).symm k) = ix2 p k := funext fun a => Fin.ext (by
    match a with
    | ⟨0, _⟩ => exact lhs_axis0 _ _
    | ⟨1, _⟩ => exact (lhs_axis1 _ _).trans hk)
  have er : dot_S8192x64_S64x64_S8192x64_1_1_0_0_n_n.rhsIdx (ix2 p q) ((ValueIdx.contrEquiv1 dot_S8192x64_S64x64_S8192x64_1_1_0_0_n_n 64 rfl rfl).symm k) = ix2 q k := funext fun a => Fin.ext (by
    match a with
    | ⟨0, _⟩ => exact rhs_axis0 _ _
    | ⟨1, _⟩ => exact (rhs_axis1 _ _).trans hk)
  rw [el, er]

/-- The bias row broadcast down 8192 rows reads, at (p, q), the row's entry (0, q). -/
theorem biasBlock_at (v : FVec Ideal S1x64 .f32) (h : S1x64.Broadcasts S8192x64) (p : Fin 8192) (q : Fin 64) :
    broadcastTo S8192x64 v h (ix2 p q) = v (ix2 (0 : Fin 1) q) :=
  broadcastTo_apply v h (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-! ## The payload -/

/-- What the body stores at (p, q) of its output block, from the three blocks it loads. -/
theorem pay_at (v0 : Vec Ideal S8192x64 .f32) (v3 : Vec Ideal S64x64 .f32) (v6 : Vec Ideal S1x64 .f32) (p : Fin 8192) (q : Fin 64) :
    k0_pay1 (F := Ideal) v0 v3 v6 (ix2 p q) = (∑ k : Fin 64, v0 (ix2 p k) * v3 (ix2 q k)) + v6 (ix2 (0 : Fin 1) q) := by
  unfold k0_pay1
  rw [addf_apply, matmul_at, biasBlock_at, shapeCast_self, shapeCast_self]
  rfl

end Cert.KernelIdeal.Payload

end
-- ==== Proof.Blocks.lean ====
/-
  From the 256 row blocks to the whole output array.

  Grid point t works on rows t·8192 … t·8192 + 8191 of the flattened input: window 0 (the rows) and window 3
  (the output) both have block index (t, 0); the weight and the bias row are the same whole block (0, 0) at every
  point.  So what point t writes back is exactly rows t·8192 … of ONE whole-array function, `affineRows` of the
  three arrays the region is entered with, and since every row r lies in the block of point r / 8192, the
  output array ends holding that function everywhere.
-/
import proofs.«173510_j28527172780630_1_alg».proof.Proof.Gen.KernelIdeal.Frame
import proofs.«173510_j28527172780630_1_alg».proof.Proof.Payload
import proofs.«173510_j28527172780630_1_alg».proof.Proof.Spec

set_option maxRecDepth 16384

noncomputable section

open scoped BigOperators

namespace Cert.KernelIdeal.Blocks

open Cert.KernelIdeal Cert.KernelIdeal.Gen Cert.KernelIdeal.Payload Cert.Affine
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The body's rectangles start at the origin. -/
theorem origin : (![0, 0] : Fin 2 → Nat) = fun _ => 0 := funext fun a => by fin_cases a <;> rfl

/-- The grid has 256 points. -/
theorem point_lt (t : Fin cfg0.N) : t.val < 256 := by
  have h := t.isLt
  have hN : cfg0.N = 256 := N_0
  omega

/-- The block index maps, decided over the grid: rows and output move with the point, weight and bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row t·8192 + p of the array. -/
def rowAt (t : Fin cfg0.N) (p : Fin 8192) : Fin 2097152 := ⟨t.val * 8192 + p.val, by have := point_lt t; omega⟩

/-! ## The input blocks, read at an element -/

/-- The row block of point t at (p, i) is the flattened input at (t·8192 + p, i). -/
theorem rows_at (c : Dev nD) (t : Fin cfg0.N) (p : Fin 8192) (i : Fin 64) :
    iblk m c 0 t (ix2 p i) = V m c main_v0 (ix2 (rowAt t p) i) := by
  show V m c main_v0 (((cfg0.win 0).blk t).view.emb (ix2 p i)) = _
  refine congrArg (V m c main_v0) ?_
  obtain ⟨e0, e1, -⟩ := idx_facts t
  funext a; apply Fin.ext
  match a with
  | ⟨0, _⟩ => show win0_0.index t (0 : Fin 2) * 8192 + 1 * p.val = t.val * 8192 + p.val; rw [e0]; omega
  | ⟨1, _⟩ => show win0_0.index t (1 : Fin 2) * 64 + 1 * i.val = i.val; rw [e1]; omega

/-- The weight block at every point is the whole weight. -/
theorem weight_at (c : Dev nD) (t : Fin cfg0.N) (o : Fin 64) (i : Fin 64) :
    iblk m c 1 t (ix2 o i) = V m c main_arg1 (ix2 o i) := by
  show V m c main_arg1 (((cfg0.win 1).blk t).view.emb (ix2 o i)) = _
  refine congrArg (V m c main_arg1) ?_
  obtain ⟨-, -, e0, e1, -⟩ := idx_facts t
  funext a; apply Fin.ext
  match a with
  | ⟨0, _⟩ => show win0_1.index t (0 : Fin 2) * 64 + 1 * o.val = o.val; rw [e0]; omega
  | ⟨1, _⟩ => show win0_1.index t (1 : Fin 2) * 64 + 1 * i.val = i.val; rw [e1]; omega

/-- The bias block at every point is the whole bias row. -/
theorem biasRow_at (c : Dev nD) (t : Fin cfg0.N) (o : Fin 64) :
    iblk m c 2 t (ix2 (0 : Fin 1) o) = V m c main_v1 (ix2 (0 : Fin 1) o) := by
  show V m c main_v1 (((cfg0.win 2).blk t).view.emb (ix2 (0 : Fin 1) o)) = _
  refine congrArg (V m c main_v1) ?_
  obtain ⟨-, -, -, -, e0, e1, -⟩ := idx_facts t
  funext a; apply Fin.ext
  match a with
  | ⟨0, _⟩ => show win0_2.index t (0 : Fin 2) * 1 + 1 * 0 = 0; rw [e0]
  | ⟨1, _⟩ => show win0_2.index t (1 : Fin 2) * 64 + 1 * o.val = o.val; rw [e1]; omega

/-- Element (p, o) of point t's output block sits at (t·8192 + p, o) of the output array. -/
theorem out_emb (t : Fin cfg0.N) (p : Fin 8192) (o : Fin 64) :
    ((cfg0.win 3).blk t).view.emb (ix2 p o) = ix2 (rowAt t p) o := by
  obtain ⟨-, -, -, -, -, -, e0, e1⟩ := idx_facts t
  funext a; apply Fin.ext
  match a with
  | ⟨0, _⟩ => show win0_3.index t (0 : Fin 2) * 8192 + 1 * p.val = t.val * 8192 + p.val; rw [e0]; omega
  | ⟨1, _⟩ => show win0_3.index t (1 : Fin 2) * 64 + 1 * o.val = o.val; rw [e1]; omega

/-! ## What a point writes back -/

/-- Point t writes back block t of `affineRows` of the arrays the region is entered with. -/
theorem flushed_eq (c : Dev nD) (t : Fin cfg0.N) :
    (dats m 0 c).flushed 3 t
      = ((cfg0.win 3).blk t).view.read (Elt Ideal) (affineRows (V m c main_v0) (V m c main_arg1) (V m c main_v1)) := by
  show (cfg0.win 3).cut (grid0.coords t) ((dats m 0 c).after 3 t) = _
  rw [after0_3]
  unfold out0_3
  rw [View.canon_unit_zero origin]
  simp only [View.ld_unit_zero (S := S8192x64) origin, View.ld_unit_zero (S := S64x64) origin, View.ld_unit_zero (S := S1x64) origin]
  funext j
  obtain ⟨p, o, rfl⟩ : ∃ (p : Fin 8192) (o : Fin 64), j = ix2 p o := ⟨j 0, j 1, eq_ix2 j⟩
  show k0_pay1 (F := Ideal) (iblk m c 0 t) (iblk m c 1 t) (iblk m c 2 t) (ix2 p o)
      = affineRows (V m c main_v0) (V m c main_arg1) (V m c main_v1) (((cfg0.win 3).blk t).view.emb (ix2 p o))
  refine (pay_at (iblk m c 0 t) (iblk m c 1 t) (iblk m c 2 t) p o).trans ?_
  rw [out_emb, affineRows_at, biasRow_at]
  refine congrArg₂ HAdd.hAdd (Finset.sum_congr rfl fun k _ => ?_) rfl
  rw [rows_at, weight_at]

/-! ## The cover -/

/-- An index of the output array is in point t's block iff its row is among the block's rows. -/
theorem mem_blk (t : Fin cfg0.N) (i : S2097152x64.Idx) :
    i ∈ ((cfg0.win 3).blk t).view.set ↔ ∀ a : Fin 2, win0_3.index t a * S8192x64.size a ≤ (i a).val ∧ (i a).val < win0_3.index t a * S8192x64.size a + S8192x64.size a := by
  show i ∈ ((View.whole main_v2).slice (win0_3.rect t)).set ↔ _
  rw [View.set_slice_whole, Rect.mem_set_unit]
  exact Iff.rfl

/-- Row r is written by point r / 8192. -/
theorem cover (i : S2097152x64.Idx) :
    ∃ t : Fin cfg0.N, (cfg0.win 3).flush t = true ∧ i ∈ ((cfg0.win 3).blk t).view.set := by
  have hi0 : (i 0).val < 2097152 := (i 0).isLt
  have hi1 : (i 1).val < 64 := (i 1).isLt
  obtain ⟨t, ht⟩ : ∃ t : Fin cfg0.N, t.val = (i 0).val / 8192 :=
    ⟨⟨(i 0).val / 8192, by have hN : cfg0.N = 256 := N_0; omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; rw [e0]; omega
  | ⟨1, _⟩ => show win0_3.index t (1 : Fin 2) * 64 ≤ (i 1).val ∧ (i 1).val < win0_3.index t (1 : Fin 2) * 64 + 64; rw [e1]; omega

/-! ## The output array after the region -/

/-- The output array ends at `affineRows` of the flattened input, the weight and the bias row. -/
theorem final (c : Dev nD) :
    (dats m 0 c).arrAt 3 cfg0.N = affineRows (V m c main_v0) (V m c main_arg1) (V m c main_v1) :=
  (dats m 0 c).arrAt_eq_of_cover 3 _ (fun t _ => flushed_eq m c t) cover

end Cert.KernelIdeal.Blocks

end
-- ==== Proof.KernelValue.lean ====
/-
  The kernel program's result array, as a function of its three arguments.

  Before the region the host flattens x to [2097152, 64] rows and views the bias as a [1, 64] row; the weight is
  passed as it is.  The region leaves `affineRows` of those three in its output array.  After the region the
  host un-flattens that array to [1024, 2048, 64].  Composed, the result is the affine map of the arguments:
      y[n, s, o] = (Σ_i x[n, s, i] · w[o, i]) + b[o].
-/
import proofs.«173510_j28527172780630_1_alg».proof.Proof.Blocks
import Idealize.ShloMosaic.Lib.StableHlo.Run

set_option maxRecDepth 16384

noncomputable section

open scoped BigOperators

namespace Cert.KernelIdeal.KernelValue

open Cert.KernelIdeal Cert.KernelIdeal.Gen Cert.KernelIdeal.Blocks Cert.Affine
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The host lines before the region -/

/-- The region finds the flattened input in its first array. -/
theorem rows_eq (c : Dev nD) (h : S1024x2048x64.ShapeCasts S2097152x64) :
    (V m c main_v0 : S2097152x64.Idx → EReal) = shapeCast S2097152x64 (m ((c : Thread nD τ).loc main_arg0)) h := by
  show StableHlo.after hostOps0 (fun b => m (c, b)) (Proc.devRef .tc main_v0) = _
  after_results
  rfl

/-- The region finds the bias, viewed as one row, in its third array. -/
theorem biasRow_eq (c : Dev nD) (h : S64.ShapeCasts S1x64) :
    (V m c main_v1 : S1x64.Idx → EReal) = shapeCast S1x64 (m ((c : Thread nD τ).loc main_arg2)) h := by
  show StableHlo.after hostOps0 (fun b => m (c, b)) (Proc.devRef .tc main_v1) = _
  after_results
  rfl

/-! ## The region's output array, and the host line after the region -/

/-- What the region leaves in its output array, in terms of the arguments. -/
theorem region_out (c : Dev nD) (h1 : S1024x2048x64.ShapeCasts S2097152x64) (h2 : S64.ShapeCasts S1x64) :
    Pipeline.withArrays (cfgs 0).spec c (V0 m c) (fun w => (dats m 0 c).arrAt w (cfgs 0).N) (Proc.devRef .tc main_v2)
      = affineRows (shapeCast S2097152x64 (m ((c : Thread nD τ).loc main_arg0)) h1) (m ((c : Thread nD τ).loc main_arg1))
          (shapeCast S1x64 (m ((c : Thread nD τ).loc main_arg2)) h2) := by
  refine (Pipeline.withArrays_arr spec0 launch0.win.arr_inj c _ _ 3).trans ?_
  rw [final, rows_eq m c h1, biasRow_eq m c h2, V_main_arg1]

/-- The program's result array after the run is the affine map of the arguments. -/
theorem result_eq (c : Dev nD) :
    Pipeline.afterTail₀ cfgs (dats m) 0 (V0 m) [hostOps1] c main_v3
      = affine (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  rw [region_out m c Gen.shapeCasts_S1024x2048x64_S2097152x64 Gen.shapeCasts_S64_S1x64]
  exact unflatten_affineRows _ _ _ _ _ Gen.shapeCasts_S2097152x64_S1024x2048x64

/-! ## The run, read -/

/-- Every weakly fair execution of the kernel program terminates with its result array at the affine map of the
    arguments, and the arguments unchanged. -/
theorem run : θ_run defs (onTc (τ := τ) (main (F := Ideal))) ⟨m, fun _ => 0, ρ⟩ fun r => ∀ c : Dev nD,
      r.2.mem ((c.tc : Thread nD τ).loc main_v3)
        = affine (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.lean ====
/-
  The certificate of a channel-mixing linear layer: for x [1024, 2048, 64], w [64, 64], b [64],
      y[n, s, o] = (Σ_i x[n, s, i] · w[o, i]) + b[o].

  The kernel flattens x to 2097152 rows, computes the rows 8192 at a time (a matrix product with w contracted on
  its second axis, after casts to a narrower float format, plus the bias row) and un-flattens the result; the
  reference contracts the channel axis of x with the second axis of w and adds the broadcast bias.  At the extended
  reals a change of float format is the identity and a matrix product into a zero accumulator is the plain sum of
  products, so both programs compute the same sum of the same products in the same order, plus the same bias:
  no algebraic law is needed, and the finiteness precondition is never opened.

  The frames of the two kernel programs are the generated ones; the reference's frame is its generated run with the
  result dropped; the idealization rewrote no operation, so there is nothing to preserve.
-/
import proofs.«173510_j28527172780630_1_alg».proof.Defs
import proofs.«173510_j28527172780630_1_alg».proof.Proof.Gen.Kernel
import proofs.«173510_j28527172780630_1_alg».proof.Proof.Gen.Kernel.Skeleton
import proofs.«173510_j28527172780630_1_alg».proof.Proof.Gen.Kernel.Launch
import proofs.«173510_j28527172780630_1_alg».proof.Proof.Gen.Kernel.Points
import proofs.«173510_j28527172780630_1_alg».proof.Proof.Gen.Kernel.Frame
import proofs.«173510_j28527172780630_1_alg».proof.Proof.Gen.KernelIdeal
import proofs.«173510_j28527172780630_1_alg».proof.Proof.Gen.KernelIdeal.Skeleton
import proofs.«173510_j28527172780630_1_alg».proof.Proof.Gen.KernelIdeal.Launch
import proofs.«173510_j28527172780630_1_alg».proof.Proof.Gen.KernelIdeal.Points
import proofs.«173510_j28527172780630_1_alg».proof.Proof.Gen.KernelIdeal.Frame
import proofs.«173510_j28527172780630_1_alg».proof.Proof.Gen.ReferenceIdeal
import proofs.«173510_j28527172780630_1_alg».proof.Proof.Gen.ReferenceIdeal.Run
import proofs.«173510_j28527172780630_1_alg».proof.Proof.Gen.ReferenceIdeal.Read
import proofs.«173510_j28527172780630_1_alg».proof.Proof.Gen.Pre_finite_inputs
import proofs.«173510_j28527172780630_1_alg».proof.Proof.RefValue
import proofs.«173510_j28527172780630_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the affine map of the (agreeing) arguments in their result array. -/
theorem algebraic : Cert.algebraic_KernelIdeal_ReferenceIdeal := by
  intro m ρ m' ρ' _ hagree
  refine ⟨fun c => Cert.Affine.affine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
